-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64x64 : Shape := ⟨3, ![8192, 64, 64]⟩
abbrev S_ : Shape := ⟨0, ![]⟩

class Facts : Prop where
  bcast_S_S8192x64x64 : S_.BroadcastsInDim S8192x64x64 (![] : Fin 0 → Fin S8192x64x64.rank)
  reducesTo_S8192x64x64_S_d0_1_2 : S8192x64x64.ReducesTo [0, 1, 2] S_
  h_S_ : 0 < S_.numel

variable [Facts]

def fn {F : FTy → Type} [FloatOps F] (main_arg0 : FVec F S8192x64x64 .f32) : IVec S_ 1 :=
  let main_v0 : FVec F S8192x64x64 .f32 := Host.absf main_arg0
  let main_cst : FVec F S_ .f32 := constant S_ .f32 0x7F800000#32
  let main_v1 : FVec F S8192x64x64 .f32 := broadcastInDim S8192x64x64 ![] bcast_S_S8192x64x64 main_cst
  let main_v2 : IVec S8192x64x64 1 := cmpf .olt main_v0 main_v1
  let main_c : IVec S_ 1 := constantI S_ 1 1#1
  let main_v3 : IVec S_ 1 := (fun x v => Host.reduce IntOp.andi x v reducesTo_S8192x64x64_S_d0_1_2 h_S_) main_v2 main_c
  main_v3
-- ==== Kernel.lean ====
abbrev S8192x64x64 : Shape := ⟨3, ![8192, 64, 64]⟩
abbrev S8192x4096 : Shape := ⟨2, ![8192, 4096]⟩
abbrev S128x64x64 : Shape := ⟨3, ![128, 64, 64]⟩
abbrev S128x64 : Shape := ⟨2, ![128, 64]⟩
abbrev S128x64x1 : Shape := ⟨3, ![128, 64, 1]⟩

abbrev nBuf : Space → Nat
  | .hbm => 3
  | .vmem => 4
  | .smem => 0
  | _ => 0

abbrev bufTy : (tb : Table) → Fin (tcTables nBuf tb) → BufTy
  | .hbm, ⟨0, _⟩ => ⟨S8192x64x64, .f32⟩
  | .hbm, ⟨1, _⟩ => ⟨S8192x64x64, .f32⟩
  | .hbm, ⟨2, _⟩ => ⟨S8192x4096, .f32⟩
  | .local _ .vmem, ⟨0, _⟩ => ⟨S128x64x64, .f32⟩
  | .local _ .vmem, ⟨1, _⟩ => ⟨S128x64x64, .f32⟩
  | .local _ .vmem, ⟨2, _⟩ => ⟨S128x64x64, .f32⟩
  | .local _ .vmem, ⟨3, _⟩ => ⟨S128x64x64, .f32⟩
  | _, _ => ⟨S8192x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8192x64x64_S8192x4096 : S8192x64x64.ShapeCasts S8192x4096
  inb_S128x64x64_S128x64x64_0_0_0 : ∀ a, (![0, 0, 0] : Fin 3 → Nat) a + S128x64x64.size a ≤ S128x64x64.size a
  h_S128x64x64 : 0 < S128x64x64.numel
  bitsLt_bf16_f32 : FTy.bits .bf16 < FTy.bits .f32
  reduces_S128x64x64_S128x64 : S128x64x64.Reduces [2] S128x64
  shapeCasts_S128x64_S128x64x1 : S128x64.ShapeCasts S128x64x1
  broadcasts_S128x64x1_S128x64x64 : S128x64x1.Broadcasts S128x64x64
  dot_S128x64x64_S128x64x64_S128x64x64_2_2_1_1_0_0_wf : DotDims.WF S128x64x64 S128x64x64 S128x64x64 [2] [2] [1] [1] [0] [0]
  dot_S128x64x64_S128x64x64_S128x64x64_2_1_1_2_0_0_wf : DotDims.WF S128x64x64 S128x64x64 S128x64x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x64.size a ≤ S8192x64x64.size a
  hwx0_0 : ∀ i : grid0.Coords, EltTy.bits .f32 = 32 ∨ (Rect.block (s := S8192x64x64) S128x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64x64.size a ≤ S8192x64x64.size a
  hwx0_1 : ∀ i : grid0.Coords, EltTy.bits .f32 = 32 ∨ (Rect.block (s := S8192x64x64) S128x64x64.size (cc0_transform_1 i) (hinb0_1 i)).WholeWords (EltTy.packing .f32)

variable [Facts₀]

def dot_S128x64x64_S128x64x64_S128x64x64_2_2_1_1_0_0 : DotDims S128x64x64 S128x64x64 S128x64x64 where
  lhsContracting := [2]
  rhsContracting := [2]
  lhsNonContracting := [1]
  rhsNonContracting := [1]
  lhsBatch := [0]
  rhsBatch := [0]
  wf := dot_S128x64x64_S128x64x64_S128x64x64_2_2_1_1_0_0_wf
def dot_S128x64x64_S128x64x64_S128x64x64_2_1_1_2_0_0 : DotDims S128x64x64 S128x64x64 S128x64x64 where
  lhsContracting := [2]
  rhsContracting := [1]
  lhsNonContracting := [1]
  rhsNonContracting := [2]
  lhsBatch := [0]
  rhsBatch := [0]
  wf := dot_S128x64x64_S128x64x64_S128x64x64_2_1_1_2_0_0_wf

abbrev win0_0 : Pipeline.Window sig grid0 :=
  Pipeline.Window.ofSpec (Memref.whole main_arg0) S128x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S128x64x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x64x64 : Shape := ⟨3, ![8192, 64, 64]⟩
abbrev S_ : Shape := ⟨0, ![]⟩
abbrev S8192x64 : Shape := ⟨2, ![8192, 64]⟩
abbrev S8192x64x1 : Shape := ⟨3, ![8192, 64, 1]⟩
abbrev S8192x4096 : Shape := ⟨2, ![8192, 4096]⟩

abbrev nBuf : Space → Nat
  | .hbm => 50
  | .vmem => 0
  | .smem => 0
  | _ => 0

abbrev bufTy : (tb : Table) → Fin (tcTables nBuf tb) → BufTy
  | .hbm, ⟨0, _⟩ => ⟨S8192x64x64, .f32⟩
  | .hbm, ⟨1, _⟩ => ⟨S8192x64x64, .f32⟩
  | .hbm, ⟨2, _⟩ => ⟨S_, .f32⟩
  | .hbm, ⟨3, _⟩ => ⟨S8192x64, .f32⟩
  | .hbm, ⟨4, _⟩ => ⟨S_, .f32⟩
  | .hbm, ⟨5, _⟩ => ⟨S8192x64, .f32⟩
  | .hbm, ⟨6, _⟩ => ⟨S8192x64, .f32⟩
  | .hbm, ⟨7, _⟩ => ⟨S8192x64x1, .f32⟩
  | .hbm, ⟨8, _⟩ => ⟨S8192x64x64, .f32⟩
  | .hbm, ⟨9, _⟩ => ⟨S8192x64x64, .f32⟩
  | .hbm, ⟨10, _⟩ => ⟨S8192x64x64, .f32⟩
  | .hbm, ⟨11, _⟩ => ⟨S_, .f32⟩
  | .hbm, ⟨12, _⟩ => ⟨S8192x64, .f32⟩
  | .hbm, ⟨13, _⟩ => ⟨S8192x64x1, .f32⟩
  | .hbm, ⟨14, _⟩ => ⟨S8192x64x64, .f32⟩
  | .hbm, ⟨15, _⟩ => ⟨S8192x64x64, .f32⟩
  | .hbm, ⟨16, _⟩ => ⟨S8192x64x64, .f32⟩
  | .hbm, ⟨17, _⟩ => ⟨S8192x64x64, .f32⟩
  | .hbm, ⟨18, _⟩ => ⟨S_, .f32⟩
  | .hbm, ⟨19, _⟩ => ⟨S8192x64, .f32⟩
  | .hbm, ⟨20, _⟩ => ⟨S_, .f32⟩
  | .hbm, ⟨21, _⟩ => ⟨S8192x64, .f32⟩
  | .hbm, ⟨22, _⟩ => ⟨S8192x64, .f32⟩
  | .hbm, ⟨23, _⟩ => ⟨S8192x64x1, .f32⟩
  | .hbm, ⟨24, _⟩ => ⟨S8192x64x64, .f32⟩
  | .hbm, ⟨25, _⟩ => ⟨S8192x64x64, .f32⟩
  | .hbm, ⟨26, _⟩ => ⟨S8192x64x64, .f32⟩
  | .hbm, ⟨27, _⟩ => ⟨S_, .f32⟩
  | .hbm, ⟨28, _⟩ => ⟨S8192x64, .f32⟩
  | .hbm, ⟨29, _⟩ => ⟨S8192x64x1, .f32⟩
  | .hbm, ⟨30, _⟩ => ⟨S8192x64x64, .f32⟩
  | .hbm, ⟨31, _⟩ => ⟨S8192x64x64, .f32⟩
  | .hbm, ⟨32, _⟩ => ⟨S8192x64x64, .f32⟩
  | .hbm, ⟨33, _⟩ => ⟨S8192x64x64, .f32⟩
  | .hbm, ⟨34, _⟩ => ⟨S_, .f32⟩
  | .hbm, ⟨35, _⟩ => ⟨S8192x64, .f32⟩
  | .hbm, ⟨36, _⟩ => ⟨S_, .f32⟩
  | .hbm, ⟨37, _⟩ => ⟨S8192x64, .f32⟩
  | .hbm, ⟨38, _⟩ => ⟨S8192x64, .f32⟩
  | .hbm, ⟨39, _⟩ => ⟨S8192x64x1, .f32⟩
  | .hbm, ⟨40, _⟩ => ⟨S8192x64x64, .f32⟩
  | .hbm, ⟨41, _⟩ => ⟨S8192x64x64, .f32⟩
  | .hbm, ⟨42, _⟩ => ⟨S8192x64x64, .f32⟩
  | .hbm, ⟨43, _⟩ => ⟨S_, .f32⟩
  | .hbm, ⟨44, _⟩ => ⟨S8192x64, .f32⟩
  | .hbm, ⟨45, _⟩ => ⟨S8192x64x1, .f32⟩
  | .hbm, ⟨46, _⟩ => ⟨S8192x64x64, .f32⟩
  | .hbm, ⟨47, _⟩ => ⟨S8192x64x64, .f32⟩
  | .hbm, ⟨48, _⟩ => ⟨S8192x64x64, .f32⟩
  | .hbm, ⟨49, _⟩ => ⟨S8192x4096, .f32⟩
  | _, _ => ⟨S8192x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_cst_3 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_4 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_5 : Ref sig .tc := ⟨.hbm, 34, rfl⟩
abbrev main_v27 : Ref sig .tc := ⟨.hbm, 35, rfl⟩
abbrev main_cst_6 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_7 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]

class Facts₀ : Prop where
  reducesTo_S8192x64x64_S8192x64_d2 : S8192x64x64.ReducesTo [2] S8192x64
  h_S_ : 0 < S_.numel
  bcast_S_S8192x64 : S_.BroadcastsInDim S8192x64 (![] : Fin 0 → Fin S8192x64.rank)
  bcast_S8192x64_S8192x64x1_0_1 : S8192x64.BroadcastsInDim S8192x64x1 (![0, 1] : Fin 2 → Fin S8192x64x1.rank)
  bcast_S8192x64x1_S8192x64x64_0_1_2 : S8192x64x1.BroadcastsInDim S8192x64x64 (![0, 1, 2] : Fin 3 → Fin S8192x64x64.rank)
  shapeCasts_S8192x64x64_S8192x4096 : S8192x64x64.ShapeCasts S8192x4096
  dot_S8192x64x64_S8192x64x64_S8192x64x64_2_2_1_1_0_0_wf : DotDims.WF S8192x64x64 S8192x64x64 S8192x64x64 [2] [2] [1] [1] [0] [0]
  dot_S8192x64x64_S8192x64x64_S8192x64x64_2_1_1_2_0_0_wf : DotDims.WF S8192x64x64 S8192x64x64 S8192x64x64 [2] [1] [1] [2] [0] [0]

variable [Facts₀]

def dot_S8192x64x64_S8192x64x64_S8192x64x64_2_2_1_1_0_0 : DotDims S8192x64x64 S8192x64x64 S8192x64x64 where
  lhsContracting := [2]
  rhsContracting := [2]
  lhsNonContracting := [1]
  rhsNonContracting := [1]
  lhsBatch := [0]
  rhsBatch := [0]
  wf := dot_S8192x64x64_S8192x64x64_S8192x64x64_2_2_1_1_0_0_wf
def dot_S8192x64x64_S8192x64x64_S8192x64x64_2_1_1_2_0_0 : DotDims S8192x64x64 S8192x64x64 S8192x64x64 where
  lhsContracting := [2]
  rhsContracting := [1]
  lhsNonContracting := [1]
  rhsNonContracting := [2]
  lhsBatch := [0]
  rhsBatch := [0]
  wf := dot_S8192x64x64_S8192x64x64_S8192x64x64_2_1_1_2_0_0_wf

class Facts : Prop extends Facts₀ where

variable [Facts]
-- ==== Proof.LibSelfAttention.lean ====
/-
  One round of self-attention WITHOUT projections, on a stack of matrices: each matrix X (n rows, d columns) is
  replaced by softmax(X·Xᵀ)·X, the softmax taken along each row of the n×n table of inner products X·Xᵀ, shifted by
  the row's maximum (taken from −∞) before the exponential:

      gram X i j    = ∑ c, X i c · X j c
      rowTop S i    = max (−∞) (the maximum over j of S i j, from −∞)
      weight S i j  = exp (S i j − rowTop S i)
      softmax S i j = weight S i j / ∑ l, weight S i l
      round X i c   = ∑ j, softmax (gram X) i j · X j c

  stated as plain functions on the extended reals, and the two ways a program writes it over a stack [a, n, d], each read
  at an index (g, i, c) at the ideal values as round of matrix g, for any extents a, n, d:
  a vector program's (a batched tpu.matmul into a zero accumulator, vector.multi_reduction for the maximum and the sum,
  the row values put back over the row by a shape cast to [a, n, 1] and a broadcast), and a host program's (a batched
  dot_general, stablehlo.reduce, two broadcast_in_dim). Neither reading needs any entry to be finite: what joins the two
  spellings is only that a matrix product into zero is the product, and that a sum or a maximum over an axis is the sum
  or the maximum over that axis's coordinates.
-/
import Idealize.ShloMosaic.PureOps.Ideal.Laws
import Idealize.ShloMosaic.Lib.ValueIdx
import Idealize.ShloMosaic.Lib.Pipeline.Value
import Idealize.ShloMosaic.Lib.StackMember

noncomputable section

namespace SelfAttention

open Idealize.ShloMosaic Idealize.ShloMosaic.ValueIdx

/-! ## The round on one matrix -/

/-- −∞, as the word both programs start a row's maximum from. -/
abbrev floor : EReal := Ideal.ofBits .f32 0xFF800000#32

section Plain
variable {n d : Nat}

/-- The table of inner products of the rows of X. -/
def gram (X : Fin n → Fin d → EReal) (i j : Fin n) : EReal := ∑ c : Fin d, X i c * X j c

/-- The maximum of row i of S, taken from −∞ (and once more against −∞, as both programs do). -/
def rowTop (S : Fin n → Fin n → EReal) (i : Fin n) : EReal :=
  max floor ((Finset.univ : Finset (Fin n)).fold max floor (S i))

/-- The exponential of an entry shifted by its row's maximum. -/
def weight (S : Fin n → Fin n → EReal) (i j : Fin n) : EReal := Ideal.exp (S i j - rowTop S i)

/-- The row softmax: each weight over the sum of its row's weights. -/
def softmax (S : Fin n → Fin n → EReal) (i j : Fin n) : EReal := Ideal.div (weight S i j) (∑ l : Fin n, weight S i l)

/-- One round: the rows of X averaged by the softmax of their inner products. -/
def round (X : Fin n → Fin d → EReal) (i : Fin n) (c : Fin d) : EReal := ∑ j : Fin n, softmax (gram X) i j * X j c

end Plain

/-- Matrix g of a stack [a, n, d]. -/
abbrev slab {a n d : Nat} (x : (⟨3, ![a, n, d]⟩ : Shape).Idx → EReal) (g : Fin a) : Fin n → Fin d → EReal :=
  fun i c => x (ix3 g i c)

/-- The round on every matrix of a stack. -/
def stackRound {a n d : Nat} (x : (⟨3, ![a, n, d]⟩ : Shape).Idx → EReal) : (⟨3, ![a, n, d]⟩ : Shape).Idx → EReal :=
  fun idx => round (slab x (idx 0)) (idx 1) (idx 2)

theorem stackRound_apply {a n d : Nat} (x : (⟨3, ![a, n, d]⟩ : Shape).Idx → EReal) (g : Fin a) (i : Fin n) (c : Fin d) :
    stackRound x (ix3 g i c) = round (slab x g) i c := rfl

/-- Matrix g of the stack after a round is the round of matrix g. -/
theorem slab_stackRound {a n d : Nat} (x : (⟨3, ![a, n, d]⟩ : Shape).Idx → EReal) (g : Fin a) :
    slab (stackRound x) g = round (slab x g) := rfl

/-- A round acts on each matrix alone: where matrix g of one stack is matrix g' of another, so it is after a round. -/
theorem slab_stackRound_congr {a a' n d : Nat} (x : (⟨3, ![a, n, d]⟩ : Shape).Idx → EReal)
    (x' : (⟨3, ![a', n, d]⟩ : Shape).Idx → EReal) (g : Fin a) (g' : Fin a') (h : slab x g = slab x' g') :
    slab (stackRound x) g = slab (stackRound x') g' := by
  rw [slab_stackRound, slab_stackRound, h]

/-- So an entry after a round depends only on its own matrix: equal matrices, equal row and column, equal entry. -/
theorem stackRound_congr {a a' n d : Nat} (x : (⟨3, ![a, n, d]⟩ : Shape).Idx → EReal)
    (x' : (⟨3, ![a', n, d]⟩ : Shape).Idx → EReal) (y : (⟨3, ![a, n, d]⟩ : Shape).Idx) (y' : (⟨3, ![a', n, d]⟩ : Shape).Idx)
    (h : slab x (y 0) = slab x' (y' 0)) (h1 : y 1 = y' 1) (h2 : y 2 = y' 2) :
    stackRound x y = stackRound x' y' := by
  show round (slab x (y 0)) (y 1) (y 2) = round (slab x' (y' 0)) (y' 1) (y' 2)
  rw [h, h1, h2]

/-! ## The two matrix products of the round, read at an index -/

section Products
variable {a n m d : Nat} {φ₁ φ₂ : FTy}

/-- At the ideal values a tpu.matmul into the zero splat is the host's dot_general with the same dimension numbers:
    both are the sum over the contraction index of the operands' products. -/
theorem matmul_zero_eq_dotGeneral {sl sr so : Shape} (D : DotDims sl sr so) (prec : Option ContractPrecision)
    (A : FVec Ideal sl φ₁) (B : FVec Ideal sr φ₂) (j : so.Idx) :
    FloatOps.matmul D prec A B (constant so .f32 0x00000000#32) j = Host.dotGeneral D prec A B j := by
  rw [Ideal.matmul_constant_zero_apply]
  exact (Ideal.dotGeneral_apply D prec .single A B j).symm

/-- The product of each matrix of a stack [a, n, d] with the TRANSPOSE of the matching matrix of a stack [a, m, d]
    (batch axes 0 and 0, both operands contracted along their last axis), read at (g, i, j): the inner product of row i
    of the one with row j of the other. -/
theorem dotGeneral_rows_apply
    (w : DotDims.WF ⟨3, ![a, n, d]⟩ ⟨3, ![a, m, d]⟩ ⟨3, ![a, n, m]⟩ [2] [2] [1] [1] [0] [0])
    (prec : Option ContractPrecision) (A : FVec Ideal ⟨3, ![a, n, d]⟩ φ₁) (B : FVec Ideal ⟨3, ![a, m, d]⟩ φ₂)
    (g : Fin a) (i : Fin n) (j : Fin m) :
    Host.dotGeneral (⟨[2], [2], [1], [1], [0], [0], w⟩ : DotDims _ _ _) prec A B (ix3 g i j)
      = ∑ c : Fin d, A (ix3 g i c) * B (ix3 g j c) := by
  show FloatOps.dotGeneral _ prec _ A B (ix3 g i j) = _
  rw [Ideal.dotGeneral_apply,
    ← Equiv.sum_comp (contrEquiv1 (⟨[2], [2], [1], [1], [0], [0], w⟩ : DotDims _ _ _) d rfl rfl).symm]
  refine Finset.sum_congr rfl fun c _ => ?_
  have c3 := contrEquiv1_symm_val
    (⟨[2], [2], [1], [1], [0], [0], w⟩ : DotDims ⟨3, ![a, n, d]⟩ ⟨3, ![a, m, d]⟩ ⟨3, ![a, n, m]⟩) d rfl rfl c
  have l3 : (⟨[2], [2], [1], [1], [0], [0], w⟩ : DotDims ⟨3, ![a, n, d]⟩ ⟨3, ![a, m, d]⟩ ⟨3, ![a, n, m]⟩).lhsIdx (ix3 g i j)
      ((contrEquiv1 _ d rfl rfl).symm c) = ix3 g i c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![a, n, d]⟩ ⟨3, ![a, m, d]⟩ ⟨3, ![a, n, m]⟩).rhsIdx (ix3 g i j)
      ((contrEquiv1 _ d rfl rfl).symm c) = ix3 g j c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

end Products

/-! ## A row's value put back over its row -/

section Keepdims
variable {a n : Nat} {α : Type}

/-- The vector program's way: [a, n] cast to [a, n, 1] and broadcast to [a, n, n] reads, at (g, i, j), the value at (g, i). -/
theorem cast_broadcast_apply (v : (⟨2, ![a, n]⟩ : Shape).Idx → α)
    (hc : (⟨2, ![a, n]⟩ : Shape).ShapeCasts ⟨3, ![a, n, 1]⟩)
    (hb : (⟨3, ![a, n, 1]⟩ : Shape).Broadcasts ⟨3, ![a, n, n]⟩) (g : Fin a) (i j : Fin n) :
    broadcastTo ⟨3, ![a, n, n]⟩ (shapeCast ⟨3, ![a, n, 1]⟩ v hc) hb (ix3 g i j) = v (ix2 g i) := by
  have hg : g.val < a := g.isLt
  have hi : i.val < n := i.isLt
  refine (broadcastTo_apply _ hb (ix3 g i j) (ix3 g i (0 : Fin 1)) (fun ax => ?_)).trans ?_
  · match ax with
    | ⟨0, _⟩ =>
      show g.val = if a = 1 then 0 else g.val
      split
      · omega
      · rfl
    | ⟨1, _⟩ =>
      show i.val = if n = 1 then 0 else i.val
      split
      · omega
      · rfl
    | ⟨2, _⟩ =>
      show (0 : Nat) = if (1 : Nat) = 1 then 0 else j.val
      rfl
  · refine shapeCast_apply v hc (ix3 g i (0 : Fin 1)) (ix2 g i) ?_
    rw [Shape.rowMajor_val_three, Shape.rowMajor_val_two]
    show g.val * n + i.val = (g.val * n + i.val) * 1 + 0
    omega

/-- The host program's way: broadcast_in_dim of [a, n] to [a, n, 1] along axes 0 and 1, then to [a, n, n] along all
    three, reads, at (g, i, j), the value at (g, i). -/
theorem broadcast_broadcast_apply (v : (⟨2, ![a, n]⟩ : Shape).Idx → α)
    (hb1 : (⟨2, ![a, n]⟩ : Shape).BroadcastsInDim ⟨3, ![a, n, 1]⟩ (![0, 1] : Fin 2 → Fin 3))
    (hb2 : (⟨3, ![a, n, 1]⟩ : Shape).BroadcastsInDim ⟨3, ![a, n, n]⟩ (![0, 1, 2] : Fin 3 → Fin 3))
    (g : Fin a) (i j : Fin n) :
    broadcastInDim ⟨3, ![a, n, n]⟩ ![0, 1, 2] hb2 (broadcastInDim ⟨3, ![a, n, 1]⟩ ![0, 1] hb1 v) (ix3 g i j) = v (ix2 g i) := by
  have hg : g.val < a := g.isLt
  have hi : i.val < n := i.isLt
  refine (broadcastInDim_apply ![0, 1, 2] hb2 _ (ix3 g i j) (ix3 g i (0 : Fin 1)) (fun ax => ?_)).trans ?_
  · match ax with
    | ⟨0, _⟩ =>
      show g.val = if a = 1 then 0 else g.val
      split
      · omega
      · rfl
    | ⟨1, _⟩ =>
      show i.val = if n = 1 then 0 else i.val
      split
      · omega
      · rfl
    | ⟨2, _⟩ =>
      show (0 : Nat) = if (1 : Nat) = 1 then 0 else j.val
      rfl
  · refine broadcastInDim_apply ![0, 1] hb1 v (ix3 g i (0 : Fin 1)) (ix2 g i) (fun ax => ?_)
    match ax with
    | ⟨0, _⟩ =>
      show g.val = if a = 1 then 0 else g.val
      split
      · omega
      · rfl
    | ⟨1, _⟩ =>
      show i.val = if n = 1 then 0 else i.val
      split
      · omega
      · rfl

/-- The coordinates of a [a, n] index with coordinate j inserted on the dropped last axis. -/
theorem lift_last (hr : (⟨3, ![a, n, n]⟩ : Shape).Reduces [2] ⟨2, ![a, n]⟩) (g : Fin a) (i j : Fin n) :
    hr.lift (ix2 g i) j = ix3 g i j := by
  funext ax; apply Fin.ext
  match ax with
  | ⟨0, _⟩ => rfl
  | ⟨1, _⟩ => rfl
  | ⟨2, _⟩ => rfl

end Keepdims

/-! ## A row's maximum and a row's sum, read at an index -/

section Rows
variable {a n : Nat}

/-- The vector program's row maximum: vector.multi_reduction <maximumf> over the last axis from −∞, then the
    maximum with the −∞ splat, read at (g, i). -/
theorem vecTop_apply (s : FVec Ideal ⟨3, ![a, n, n]⟩ .f32)
    (hr : (⟨3, ![a, n, n]⟩ : Shape).Reduces [2] ⟨2, ![a, n]⟩) (hφ : FKind.Formats .f32)
    (hmax : (0xFF800000#32 : BitVec (FTy.bits .f32)) = FKind.maximumf.neutral .f32 hφ) (g : Fin a) (i : Fin n) :
    maximumf (broadcast ⟨2, ![a, n]⟩ (Scalar.ofBits (F := Ideal) .f32 0xFF800000#32))
        (multiReduction .maximumf [2] ⟨2, ![a, n]⟩ s 0xFF800000#32 hr hφ hmax) (ix2 g i)
      = rowTop (fun i j => s (ix3 g i j)) i := by
  show max floor (multiReduction .maximumf [2] ⟨2, ![a, n]⟩ s 0xFF800000#32 hr hφ hmax (ix2 g i)) = _
  rw [Ideal.multiReduction_maximumf_single]
  unfold rowTop
  congr 1
  exact congrArg (fun f => (Finset.univ : Finset (Fin n)).fold max floor f)
    (funext fun j => congrArg s (lift_last hr g i j))

/-- The host program's row maximum: stablehlo.reduce with a maximum body over the last axis from −∞, then the
    maximum with the broadcast −∞, read at (g, i). -/
theorem hostTop_apply (s : FVec Ideal ⟨3, ![a, n, n]⟩ .f32)
    (hrt : (⟨3, ![a, n, n]⟩ : Shape).ReducesTo [2] ⟨2, ![a, n]⟩) (hr : (⟨3, ![a, n, n]⟩ : Shape).Reduces [2] ⟨2, ![a, n]⟩)
    (hS : 0 < (⟨0, ![]⟩ : Shape).numel)
    (hb0 : (⟨0, ![]⟩ : Shape).BroadcastsInDim ⟨2, ![a, n]⟩ (![] : Fin 0 → Fin 2)) (g : Fin a) (i : Fin n) :
    maximumf (broadcastInDim ⟨2, ![a, n]⟩ ![] hb0 (constant (F := Ideal) ⟨0, ![]⟩ .f32 0xFF800000#32))
        (Host.reduce FloatOps.maximumf s (constant (F := Ideal) ⟨0, ![]⟩ .f32 0xFF800000#32) hrt hS) (ix2 g i)
      = rowTop (fun i j => s (ix3 g i j)) i := by
  rw [maximumf_apply, broadcastInDim_apply ![] hb0 _ (ix2 g i) ix0 (fun ax => ax.elim0),
    Host.reduce_eq_fold_single FloatOps.maximumf s _ hrt hr hS]
  unfold rowTop
  show max floor ((Finset.univ : Finset (Fin n)).fold max floor (s ∘ hr.lift (ix2 g i))) = _
  congr 1
  exact congrArg (fun f => (Finset.univ : Finset (Fin n)).fold max floor f)
    (funext fun j => congrArg s (lift_last hr g i j))

/-- The vector program's row sum: vector.multi_reduction <add> over the last axis, read at (g, i). -/
theorem vecSum_apply (e : FVec Ideal ⟨3, ![a, n, n]⟩ .f32)
    (hr : (⟨3, ![a, n, n]⟩ : Shape).Reduces [2] ⟨2, ![a, n]⟩) (hφ : FKind.Formats .f32)
    (hadd : (0x00000000#32 : BitVec (FTy.bits .f32)) = FKind.add.neutral .f32 hφ) (g : Fin a) (i : Fin n) :
    multiReduction .add [2] ⟨2, ![a, n]⟩ e 0x00000000#32 hr hφ hadd (ix2 g i) = ∑ j : Fin n, e (ix3 g i j) := by
  rw [Ideal.multiReduction_add_single]
  exact Finset.sum_congr rfl fun j _ => congrArg e (lift_last hr g i j)

/-- The host program's row sum: stablehlo.reduce with an add body over the last axis from the zero constant,
    read at (g, i). -/
theorem hostSum_apply (e : FVec Ideal ⟨3, ![a, n, n]⟩ .f32)
    (hrt : (⟨3, ![a, n, n]⟩ : Shape).ReducesTo [2] ⟨2, ![a, n]⟩) (hr : (⟨3, ![a, n, n]⟩ : Shape).Reduces [2] ⟨2, ![a, n]⟩)
    (hS : 0 < (⟨0, ![]⟩ : Shape).numel) (g : Fin a) (i : Fin n) :
    Host.reduceAdd e (constant (F := Ideal) ⟨0, ![]⟩ .f32 0x00000000#32) hrt hS (ix2 g i) = ∑ j : Fin n, e (ix3 g i j) := by
  show Ideal.hostReduceAdd hrt e (Ideal.ofBits .f32 0x00000000#32) (ix2 g i) = _
  rw [Ideal.hostReduceAdd_single hrt hr, Ideal.ofBits_zero_f32, zero_add]
  exact Finset.sum_congr rfl fun j _ => congrArg e (lift_last hr g i j)

end Rows

/-! ## The whole round, as a vector program writes it -/

section Vector
variable {a n d : Nat} {φ ψ : FTy}
variable (w1 : DotDims.WF ⟨3, ![a, n, d]⟩ ⟨3, ![a, n, d]⟩ ⟨3, ![a, n, n]⟩ [2] [2] [1] [1] [0] [0])
  (w2 : DotDims.WF ⟨3, ![a, n, n]⟩ ⟨3, ![a, n, d]⟩ ⟨3, ![a, n, d]⟩ [2] [1] [1] [2] [0] [0])
  (hr : (⟨3, ![a, n, n]⟩ : Shape).Reduces [2] ⟨2, ![a, n]⟩)
  (hc : (⟨2, ![a, n]⟩ : Shape).ShapeCasts ⟨3, ![a, n, 1]⟩)
  (hb : (⟨3, ![a, n, 1]⟩ : Shape).Broadcasts ⟨3, ![a, n, n]⟩)
  (hφ : FKind.Formats .f32)
  (hmax : (0xFF800000#32 : BitVec (FTy.bits .f32)) = FKind.maximumf.neutral .f32 hφ)
  (hadd : (0x00000000#32 : BitVec (FTy.bits .f32)) = FKind.add.neutral .f32 hφ)
  (hlt : ψ.bits < FTy.bits .f32)

/-- The inner products: a batched tpu.matmul of the stack with itself, both operands contracted along the last axis,
    into the zero splat. -/
def vecScores (x : FVec Ideal ⟨3, ![a, n, d]⟩ φ) : FVec Ideal ⟨3, ![a, n, n]⟩ .f32 :=
  matmul (⟨[2], [2], [1], [1], [0], [0], w1⟩ : DotDims _ _ _) none x x (constant ⟨3, ![a, n, n]⟩ .f32 0x00000000#32)

/-- The shifted exponentials. -/
def vecWeights (s : FVec Ideal ⟨3, ![a, n, n]⟩ .f32) : FVec Ideal ⟨3, ![a, n, n]⟩ .f32 :=
  exp (subf s (broadcastTo ⟨3, ![a, n, n]⟩ (shapeCast ⟨3, ![a, n, 1]⟩
    (maximumf (broadcast ⟨2, ![a, n]⟩ (Scalar.ofBits (F := Ideal) .f32 0xFF800000#32))
      (multiReduction .maximumf [2] ⟨2, ![a, n]⟩ s 0xFF800000#32 hr hφ hmax)) hc) hb))

/-- The row sums of the shifted exponentials, kept as a column [a, n, 1]. -/
def vecNorm (e : FVec Ideal ⟨3, ![a, n, n]⟩ .f32) : FVec Ideal ⟨3, ![a, n, 1]⟩ .f32 :=
  shapeCast ⟨3, ![a, n, 1]⟩ (multiReduction .add [2] ⟨2, ![a, n]⟩ e 0x00000000#32 hr hφ hadd) hc

/-- The quotient, narrowed to the matrix unit's operand format, times the stack: a batched tpu.matmul into the zero splat. -/
def vecMix (x : FVec Ideal ⟨3, ![a, n, d]⟩ φ) (e : FVec Ideal ⟨3, ![a, n, n]⟩ .f32) (z : FVec Ideal ⟨3, ![a, n, 1]⟩ .f32) :
    FVec Ideal ⟨3, ![a, n, d]⟩ .f32 :=
  matmul (⟨[2], [1], [1], [2], [0], [0], w2⟩ : DotDims _ _ _) none
    (truncf ψ (divf e (broadcastTo ⟨3, ![a, n, n]⟩ z hb)) hlt) x (constant ⟨3, ![a, n, d]⟩ .f32 0x00000000#32)

/-- The round, as the vector program writes it. -/
def vecRound (x : FVec Ideal ⟨3, ![a, n, d]⟩ φ) : FVec Ideal ⟨3, ![a, n, d]⟩ .f32 :=
  vecMix w2 hb hlt x (vecWeights hr hc hb hφ hmax (vecScores w1 x))
    (vecNorm hr hc hφ hadd (vecWeights hr hc hb hφ hmax (vecScores w1 x)))

theorem vecScores_apply (x : FVec Ideal ⟨3, ![a, n, d]⟩ φ) (g : Fin a) (i j : Fin n) :
    vecScores w1 x (ix3 g i j) = gram (slab x g) i j := by
  unfold vecScores gram
  show FloatOps.matmul _ none x x (constant ⟨3, ![a, n, n]⟩ .f32 0x00000000#32) (ix3 g i j) = _
  rw [matmul_zero_eq_dotGeneral, dotGeneral_rows_apply]

theorem vecWeights_apply (s : FVec Ideal ⟨3, ![a, n, n]⟩ .f32) (g : Fin a) (i j : Fin n) :
    vecWeights hr hc hb hφ hmax s (ix3 g i j) = weight (fun i j => s (ix3 g i j)) i j := by
  unfold vecWeights weight
  show Ideal.exp (s (ix3 g i j) - broadcastTo ⟨3, ![a, n, n]⟩ (shapeCast ⟨3, ![a, n, 1]⟩ _ hc) hb (ix3 g i j)) = _
  rw [cast_broadcast_apply, vecTop_apply]

theorem vecMix_apply (x : FVec Ideal ⟨3, ![a, n, d]⟩ φ) (e : FVec Ideal ⟨3, ![a, n, n]⟩ .f32)
    (t : FVec Ideal ⟨2, ![a, n]⟩ .f32) (g : Fin a) (i : Fin n) (c : Fin d) :
    vecMix w2 hb hlt x e (shapeCast ⟨3, ![a, n, 1]⟩ t hc) (ix3 g i c)
      = ∑ j : Fin n, Ideal.div (e (ix3 g i j)) (t (ix2 g i)) * x (ix3 g j c) := by
  unfold vecMix
  show FloatOps.matmul _ none _ x (constant ⟨3, ![a, n, d]⟩ .f32 0x00000000#32) (ix3 g i c) = _
  rw [matmul_zero_eq_dotGeneral, StackMember.dotGeneral_stack_apply]
  refine Finset.sum_congr rfl fun j _ => ?_
  show Ideal.div (e (ix3 g i j)) (broadcastTo ⟨3, ![a, n, n]⟩ (shapeCast ⟨3, ![a, n, 1]⟩ t hc) hb (ix3 g i j)) * _ = _
  rw [cast_broadcast_apply]

/-- The vector program's round read at (g, i, c): the round of matrix g. -/
theorem vecRound_apply (x : FVec Ideal ⟨3, ![a, n, d]⟩ φ) (g : Fin a) (i : Fin n) (c : Fin d) :
    vecRound w1 w2 hr hc hb hφ hmax hadd hlt x (ix3 g i c) = round (slab x g) i c := by
  unfold vecRound vecNorm
  rw [vecMix_apply]
  unfold round softmax
  have hs : (fun i j => vecScores w1 x (ix3 g i j)) = gram (slab x g) :=
    funext fun i => funext fun j => vecScores_apply w1 x g i j
  refine Finset.sum_congr rfl fun j _ => ?_
  rw [vecSum_apply, vecWeights_apply, hs]
  congr 2
  exact Finset.sum_congr rfl fun l _ => by rw [vecWeights_apply, hs]

/-- So the vector program's round is the round on every matrix of the stack. -/
theorem vecRound_eq (x : FVec Ideal ⟨3, ![a, n, d]⟩ φ) :
    vecRound w1 w2 hr hc hb hφ hmax hadd hlt x = stackRound x := by
  funext idx
  obtain ⟨g, i, c, rfl⟩ : ∃ (g : Fin a) (i : Fin n) (c : Fin d), idx = ix3 g i c := ⟨idx 0, idx 1, idx 2, eq_ix3 idx⟩
  exact vecRound_apply w1 w2 hr hc hb hφ hmax hadd hlt x g i c

end Vector

/-! ## The whole round, as a host program writes it -/

section Host
variable {a n d : Nat} {φ : FTy}
variable (w1 : DotDims.WF ⟨3, ![a, n, d]⟩ ⟨3, ![a, n, d]⟩ ⟨3, ![a, n, n]⟩ [2] [2] [1] [1] [0] [0])
  (w2 : DotDims.WF ⟨3, ![a, n, n]⟩ ⟨3, ![a, n, d]⟩ ⟨3, ![a, n, d]⟩ [2] [1] [1] [2] [0] [0])
  (hrt : (⟨3, ![a, n, n]⟩ : Shape).ReducesTo [2] ⟨2, ![a, n]⟩)
  (hS : 0 < (⟨0, ![]⟩ : Shape).numel)
  (hb0 : (⟨0, ![]⟩ : Shape).BroadcastsInDim ⟨2, ![a, n]⟩ (![] : Fin 0 → Fin 2))
  (hb1 : (⟨2, ![a, n]⟩ : Shape).BroadcastsInDim ⟨3, ![a, n, 1]⟩ (![0, 1] : Fin 2 → Fin 3))
  (hb2 : (⟨3, ![a, n, 1]⟩ : Shape).BroadcastsInDim ⟨3, ![a, n, n]⟩ (![0, 1, 2] : Fin 3 → Fin 3))

/-- The inner products: a batched dot_general of the stack with itself, both operands contracted along the last axis. -/
def hostScores (x : FVec Ideal ⟨3, ![a, n, d]⟩ φ) : FVec Ideal ⟨3, ![a, n, n]⟩ .f32 :=
  Host.dotGeneral (⟨[2], [2], [1], [1], [0], [0], w1⟩ : DotDims _ _ _) none x x

/-- The shifted exponentials. -/
def hostWeights (s : FVec Ideal ⟨3, ![a, n, n]⟩ .f32) : FVec Ideal ⟨3, ![a, n, n]⟩ .f32 :=
  Host.exp (subf s (broadcastInDim ⟨3, ![a, n, n]⟩ ![0, 1, 2] hb2 (broadcastInDim ⟨3, ![a, n, 1]⟩ ![0, 1] hb1
    (maximumf (broadcastInDim ⟨2, ![a, n]⟩ ![] hb0 (constant (F := Ideal) ⟨0, ![]⟩ .f32 0xFF800000#32))
      (Host.reduce FloatOps.maximumf s (constant (F := Ideal) ⟨0, ![]⟩ .f32 0xFF800000#32) hrt hS)))))

/-- The quotient by the row sums, times the stack. -/
def hostMix (x : FVec Ideal ⟨3, ![a, n, d]⟩ φ) (e : FVec Ideal ⟨3, ![a, n, n]⟩ .f32) : FVec Ideal ⟨3, ![a, n, d]⟩ .f32 :=
  Host.dotGeneral (⟨[2], [1], [1], [2], [0], [0], w2⟩ : DotDims _ _ _) none
    (Host.divf e (broadcastInDim ⟨3, ![a, n, n]⟩ ![0, 1, 2] hb2 (broadcastInDim ⟨3, ![a, n, 1]⟩ ![0, 1] hb1
      (Host.reduceAdd e (constant (F := Ideal) ⟨0, ![]⟩ .f32 0x00000000#32) hrt hS)))) x

/-- The round, as the host program writes it. -/
def hostRound (x : FVec Ideal ⟨3, ![a, n, d]⟩ φ) : FVec Ideal ⟨3, ![a, n, d]⟩ .f32 :=
  hostMix w2 hrt hS hb1 hb2 x (hostWeights hrt hS hb0 hb1 hb2 (hostScores w1 x))

theorem hostScores_apply (x : FVec Ideal ⟨3, ![a, n, d]⟩ φ) (g : Fin a) (i j : Fin n) :
    hostScores w1 x (ix3 g i j) = gram (slab x g) i j := by
  unfold hostScores gram
  rw [dotGeneral_rows_apply]

theorem hostWeights_apply (hr : (⟨3, ![a, n, n]⟩ : Shape).Reduces [2] ⟨2, ![a, n]⟩) (s : FVec Ideal ⟨3, ![a, n, n]⟩ .f32) (g : Fin a) (i j : Fin n) :
    hostWeights hrt hS hb0 hb1 hb2 s (ix3 g i j) = weight (fun i j => s (ix3 g i j)) i j := by
  unfold hostWeights weight
  refine congrArg (fun z => Ideal.exp (s (ix3 g i j) - z)) ?_
  exact (broadcast_broadcast_apply _ hb1 hb2 g i j).trans (hostTop_apply s hrt hr hS hb0 g i)

theorem hostMix_apply (hr : (⟨3, ![a, n, n]⟩ : Shape).Reduces [2] ⟨2, ![a, n]⟩) (x : FVec Ideal ⟨3, ![a, n, d]⟩ φ) (e : FVec Ideal ⟨3, ![a, n, n]⟩ .f32) (g : Fin a) (i : Fin n) (c : Fin d) :
    hostMix w2 hrt hS hb1 hb2 x e (ix3 g i c)
      = ∑ j : Fin n, Ideal.div (e (ix3 g i j)) (∑ l : Fin n, e (ix3 g i l)) * x (ix3 g j c) := by
  unfold hostMix
  rw [StackMember.dotGeneral_stack_apply]
  refine Finset.sum_congr rfl fun j _ => ?_
  refine congrArg (fun z => Ideal.div (e (ix3 g i j)) z * x (ix3 g j c)) ?_
  exact (broadcast_broadcast_apply _ hb1 hb2 g i j).trans (hostSum_apply e hrt hr hS g i)

/-- The host program's round read at (g, i, c): the round of matrix g. -/
theorem hostRound_apply (hr : (⟨3, ![a, n, n]⟩ : Shape).Reduces [2] ⟨2, ![a, n]⟩) (x : FVec Ideal ⟨3, ![a, n, d]⟩ φ) (g : Fin a) (i : Fin n) (c : Fin d) :
    hostRound w1 w2 hrt hS hb0 hb1 hb2 x (ix3 g i c) = round (slab x g) i c := by
  unfold hostRound
  rw [hostMix_apply w2 hrt hS hb1 hb2 hr]
  unfold round softmax
  have hs : (fun i j => hostScores w1 x (ix3 g i j)) = gram (slab x g) :=
    funext fun i => funext fun j => hostScores_apply w1 x g i j
  refine Finset.sum_congr rfl fun j _ => ?_
  rw [hostWeights_apply hrt hS hb0 hb1 hb2 hr, hs]
  congr 2
  exact Finset.sum_congr rfl fun l _ => by rw [hostWeights_apply hrt hS hb0 hb1 hb2 hr, hs]

/-- So the host program's round is the round on every matrix of the stack. -/
theorem hostRound_eq (hr : (⟨3, ![a, n, n]⟩ : Shape).Reduces [2] ⟨2, ![a, n]⟩) (x : FVec Ideal ⟨3, ![a, n, d]⟩ φ) :
    hostRound w1 w2 hrt hS hb0 hb1 hb2 x = stackRound x := by
  funext idx
  obtain ⟨g, i, c, rfl⟩ : ∃ (g : Fin a) (i : Fin n) (c : Fin d), idx = ix3 g i c := ⟨idx 0, idx 1, idx 2, eq_ix3 idx⟩
  exact hostRound_apply w1 w2 hrt hS hb0 hb1 hb2 hr x g i c

end Host

end SelfAttention

end
-- ==== Proof.KernelRounds.lean ====
/-
  The kernel's value. At each of its 64 grid points the body loads a block of 128 matrices of the stack, runs three
  self-attention rounds on it as vector operations (the narrowing of each round's result before the next matrix product
  is the identity on the extended reals), and stores the block; point t reads and writes block t of the stack, and the
  64 blocks tile it. A round acts on each matrix alone, so three rounds of a block are the block of three rounds of the
  stack, and the array the region leaves is three rounds on every matrix of the argument. The reshape after the region
  is applied to that array.
-/
import proofs.«137464_j51539607704_1_alg».proof.Proof.Gen.KernelIdeal.Frame
import proofs.«137464_j51539607704_1_alg».proof.Proof.LibSelfAttention
import Idealize.ShloMosaic.Lib.Pipeline.Value
import Idealize.ShloMosaic.Lib.StableHlo.Run

set_option maxRecDepth 16384

noncomputable section

namespace Cert.KernelIdeal.Rounds

open Cert.KernelIdeal Cert.KernelIdeal.Gen
open Idealize.ShloMosaic Idealize.ShloMosaic.TcCoe Idealize.ShloMosaic.ValueIdx Idealize.SL.Sem SelfAttention
open Idealize.ShloMosaic.Pipeline (Dat Cfg Window)

/-! ## The body's stored value -/

/-- One round as the body writes it, on a block of 128 matrices. -/
def blkRound {φ : FTy} (x : FVec Ideal S128x64x64 φ) : FVec Ideal S128x64x64 .f32 :=
  vecRound dot_S128x64x64_S128x64x64_S128x64x64_2_2_1_1_0_0_wf dot_S128x64x64_S128x64x64_S128x64x64_2_1_1_2_0_0_wf
    reduces_S128x64x64_S128x64 shapeCasts_S128x64_S128x64x1 broadcasts_S128x64x1_S128x64x64 (.inl rfl) rfl rfl
    bitsLt_bf16_f32 x

/-- It is the round on every matrix of the block. -/
theorem blkRound_eq {φ : FTy} (x : FVec Ideal S128x64x64 φ) : blkRound x = stackRound x :=
  vecRound_eq _ _ _ _ _ _ _ _ _ x

/-- The value the body carries into its third round: two rounds of the loaded block, narrowed. -/
theorem two_rounds (x0 : Vec Ideal S128x64x64 .f32) :
    k0_pay2 (F := Ideal) x0
      = truncf .bf16 (blkRound (truncf .bf16 (blkRound (truncf .bf16 x0 bitsLt_bf16_f32)) bitsLt_bf16_f32)) bitsLt_bf16_f32 := rfl

/-- The value the body stores: the third round of what it carried. -/
theorem third_round (x0 : Vec Ideal S128x64x64 .f32) :
    k0_pay1 (F := Ideal) (k0_pay2 x0) (k0_pay3 x0) (k0_pay4 x0) = blkRound (k0_pay2 (F := Ideal) x0) := rfl

/-- So the body stores three rounds on every matrix of the block it loaded. -/
theorem stored_eq (x0 : Vec Ideal S128x64x64 .f32) :
    k0_pay1 (F := Ideal) (k0_pay2 x0) (k0_pay3 x0) (k0_pay4 x0) = stackRound (stackRound (stackRound x0)) := by
  rw [third_round, two_rounds, blkRound_eq, blkRound_eq, blkRound_eq]
  rfl

/-! ## From the blocks to the array -/

variable (m : (ℓ : Loc nD τ sig) → Buf (Elt Ideal) ℓ) (ρ : Dev nD → PrngReg)

/-- Three rounds on every matrix of a stack. -/
abbrev threeRounds {a : Nat} (x : (⟨3, ![a, 64, 64]⟩ : Shape).Idx → EReal) : (⟨3, ![a, 64, 64]⟩ : Shape).Idx → EReal :=
  stackRound (stackRound (stackRound x))

/-- Three rounds of an entry depend only on its own matrix. -/
theorem threeRounds_congr {a a' : Nat} (x : (⟨3, ![a, 64, 64]⟩ : Shape).Idx → EReal)
    (x' : (⟨3, ![a', 64, 64]⟩ : Shape).Idx → EReal) (y : (⟨3, ![a, 64, 64]⟩ : Shape).Idx) (y' : (⟨3, ![a', 64, 64]⟩ : Shape).Idx)
    (h : slab x (y 0) = slab x' (y' 0)) (h1 : y 1 = y' 1) (h2 : y 2 = y' 2) :
    threeRounds x y = threeRounds x' y' :=
  stackRound_congr _ _ y y' (slab_stackRound_congr _ _ _ _ (slab_stackRound_congr _ _ _ _ h)) h1 h2

theorem origin : (![0, 0, 0] : Fin 3 → Nat) = fun _ => 0 := funext fun a => by fin_cases a <;> rfl

/-- The printed index maps, decided over the grid: the input's block moves with the output's along the stack axis,
    and both take the whole of the other two axes. -/
theorem block_index : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0 ∧ win0_1.index t (0 : Fin 3) ≤ 63 :=
  (by decide +kernel : ∀ t : Fin grid0.N, _)

/-- Every one of the 64 blocks along the stack axis is some point's. -/
theorem block_onto : ∀ q : Fin 64, ∃ t : Fin cfg0.N, win0_1.index t = ![q.val, 0, 0] :=
  (by decide +kernel : ∀ q : Fin 64, ∃ t : Fin grid0.N, win0_1.index t = ![q.val, 0, 0])

/-- The input block at point t, read at z, is the argument array at Z when Z is z moved to the block's place. -/
theorem iblk_read (c : Dev nD) (t : Fin cfg0.N) (z : S128x64x64.Idx) (Z : S8192x64x64.Idx)
    (h0 : (Z 0).val = win0_0.index t (0 : Fin 3) * 128 + (z 0).val) (h1 : (Z 1).val = (z 1).val) (h2 : (Z 2).val = (z 2).val) :
    iblk m c 0 t z = V m c main_arg0 Z := by
  obtain ⟨e0, e1, e2, e3, e4, e5⟩ := block_index t
  show V m c main_arg0 (((cfg0.win 0).blk t).view.emb z) = V m c main_arg0 Z
  refine congrArg (V m c main_arg0) (funext fun a => Fin.ext ?_)
  match a with
  | ⟨0, _⟩ => show win0_0.index t (0 : Fin 3) * 128 + 1 * (z 0).val = (Z 0).val; omega
  | ⟨1, _⟩ => show win0_0.index t (1 : Fin 3) * 64 + 1 * (z 1).val = (Z 1).val; omega
  | ⟨2, _⟩ => show win0_0.index t (2 : Fin 3) * 64 + 1 * (z 2).val = (Z 2).val; omega

/-- WHAT POINT t WRITES BACK is block t of three rounds of the argument array. -/
theorem flushed_eq (c : Dev nD) (t : Fin cfg0.N) :
    (dats m 0 c).flushed 1 t = ((cfg0.win 1).blk t).view.read (Elt Ideal) (threeRounds (V m c main_arg0)) := by
  show (cfg0.win 1).cut (grid0.coords t) ((dats m 0 c).after 1 t) = _
  rw [after0_1]
  unfold out0_1
  rw [View.canon_unit_zero origin]
  simp only [View.ld_unit_zero (S := S128x64x64) origin]
  rw [stored_eq]
  obtain ⟨e0, e1, e2, e3, e4, e5⟩ := block_index t
  funext y
  show threeRounds (iblk m c 0 t) y = threeRounds (V m c main_arg0) (((cfg0.win 1).blk t).view.emb y)
  have hy0 : (y 0).val < 128 := (y 0).isLt
  have q0 : ((((cfg0.win 1).blk t).view.emb y) 0).val = win0_1.index t (0 : Fin 3) * 128 + 1 * (y 0).val := rfl
  have q1 : ((((cfg0.win 1).blk t).view.emb y) 1).val = win0_1.index t (1 : Fin 3) * 64 + 1 * (y 1).val := rfl
  have q2 : ((((cfg0.win 1).blk t).view.emb y) 2).val = win0_1.index t (2 : Fin 3) * 64 + 1 * (y 2).val := rfl
  refine threeRounds_congr (iblk m c 0 t) (V m c main_arg0) y (((cfg0.win 1).blk t).view.emb y) ?_ ?_ ?_
  · funext i k
    exact iblk_read m c t (ix3 (y 0) i k) (ix3 ((((cfg0.win 1).blk t).view.emb y) 0) i k) (by
      show ((((cfg0.win 1).blk t).view.emb y) 0).val = win0_0.index t (0 : Fin 3) * 128 + (y 0).val
      omega) rfl rfl
  · exact Fin.ext (by omega)
  · exact Fin.ext (by omega)

/-- An index of the array is in point t's block iff each coordinate is in the block's range on its axis. -/
theorem mem_blk (t : Fin cfg0.N) (i : S8192x64x64.Idx) :
    i ∈ ((cfg0.win 1).blk t).view.set ↔ ∀ a : Fin 3, win0_1.index t a * S128x64x64.size a ≤ (i a).val
      ∧ (i a).val < win0_1.index t a * S128x64x64.size a + S128x64x64.size a := by
  show i ∈ ((View.whole main_call0_v0).slice (win0_1.rect t)).set ↔ _
  rw [View.set_slice_whole, Rect.mem_set_unit]
  exact Iff.rfl

/-- Every index of the array is in some point's block: matrix number r is in block r / 128. -/
theorem cover (i : S8192x64x64.Idx) :
    ∃ t : Fin cfg0.N, (cfg0.win 1).flush t = true ∧ i ∈ ((cfg0.win 1).blk t).view.set := by
  have hi0 : (i 0).val < 8192 := (i 0).isLt
  have hi1 : (i 1).val < 64 := (i 1).isLt
  have hi2 : (i 2).val < 64 := (i 2).isLt
  obtain ⟨t, ht⟩ := block_onto ⟨(i 0).val / 128, by omega⟩
  have q0 : win0_1.index t (0 : Fin 3) = (i 0).val / 128 := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 128 ≤ (i 0).val ∧ (i 0).val < win0_1.index t (0 : Fin 3) * 128 + 128; omega
  | ⟨1, _⟩ => show win0_1.index t (1 : Fin 3) * 64 ≤ (i 1).val ∧ (i 1).val < win0_1.index t (1 : Fin 3) * 64 + 64; omega
  | ⟨2, _⟩ => show win0_1.index t (2 : Fin 3) * 64 ≤ (i 2).val ∧ (i 2).val < win0_1.index t (2 : Fin 3) * 64 + 64; omega

/-- THE ARRAY the region leaves: three rounds on every matrix of the argument. -/
theorem final (c : Dev nD) :
    (dats m 0 c).arrAt 1 cfg0.N = threeRounds (m ((c : Thread nD τ).loc main_arg0)) :=
  (dats m 0 c).arrAt_eq_of_cover 1 (threeRounds (V m c main_arg0)) (fun t _ => flushed_eq m c t) cover

/-! ## The reshape after the region, and the run -/

/-- The result buffer after the host line that follows the region: the reshape of the array the region left. -/
theorem tail_eq (c : Dev nD) :
    Pipeline.afterTail₀ cfgs (dats m) 0 (V0 m) [hostOps1] c main_v0
      = shapeCast S8192x4096 (threeRounds (m ((c : Thread nD τ).loc main_arg0))) shapeCasts_S8192x64x64_S8192x4096 := by
  unfold Pipeline.afterTail₀
  show StableHlo.after hostOps1 _ (Proc.devRef .tc main_v0) = _
  after_results
  exact congrArg (fun z => shapeCast S8192x4096 z shapeCasts_S8192x64x64_S8192x4096)
    ((Pipeline.withArrays_arr spec0 launch0.win.arr_inj c (V0 m c) (fun w => (dats m 0 c).arrAt w cfg0.N) 1).trans (final m c))

/-- The kernel's run, read: its result is the reshape of three rounds on every matrix of the argument, and the
    argument is unchanged. -/
theorem run : θ_run defs (onTc (τ := τ) (main (F := Ideal))) ⟨m, fun _ => 0, ρ⟩ fun r => ∀ c : Dev nD,
      r.2.mem ((c.tc : Thread nD τ).loc main_v0)
          = shapeCast S8192x4096 (threeRounds (m ((c.tc : Thread nD τ).loc main_arg0))) shapeCasts_S8192x64x64_S8192x4096
      ∧ r.2.mem ((c.tc : Thread nD τ).loc main_arg0) = m ((c.tc : Thread nD τ).loc main_arg0) :=
  (θ_run defs _ _).mono (fun _ h c => ⟨((h c).2 main_v0 (by decide)).trans (tail_eq m c),
      ((h c).1 0).trans (((dats m 0 c).arrAt_in 0 rfl _).trans ((A_eq m c 0).trans (V_main_arg0 m c)))⟩)
    (run_main m ρ)

end Cert.KernelIdeal.Rounds

end
-- ==== Proof.ReferenceRounds.lean ====
/-
  The reference, round by round. Its @main is three self-attention rounds written one after the other as host
  operations, then a reshape of the stack [8192, 64, 64] to [8192, 4096]. The generated run names the stack after the
  first round and after the second; each is the host spelling of one round applied to the stack before it, and the
  result is the reshape of the third. A host round is the round on every matrix of the stack, so the reference's result
  is the reshape of three rounds on every matrix of its argument.
-/
import proofs.«137464_j51539607704_1_alg».proof.Proof.Gen.ReferenceIdeal.Run
import proofs.«137464_j51539607704_1_alg».proof.Proof.LibSelfAttention

noncomputable section

namespace Cert.ReferenceIdeal.Rounds

open Cert.ReferenceIdeal Cert.ReferenceIdeal.Gen Cert.ReferenceIdeal.Value
open Idealize.ShloMosaic Idealize.ShloMosaic.TcCoe Idealize.ShloMosaic.ValueIdx Idealize.SL.Sem SelfAttention

/-- The row reductions drop the last axis of the table of inner products. -/
theorem reduces_last : S8192x64x64.Reduces [2] S8192x64 := by decide

/-- One round as the reference writes it, over the whole stack. -/
def refRound (x : FVec Ideal S8192x64x64 .f32) : FVec Ideal S8192x64x64 .f32 :=
  hostRound dot_S8192x64x64_S8192x64x64_S8192x64x64_2_2_1_1_0_0_wf dot_S8192x64x64_S8192x64x64_S8192x64x64_2_1_1_2_0_0_wf
    reducesTo_S8192x64x64_S8192x64_d2 h_S_ bcast_S_S8192x64 bcast_S8192x64_S8192x64x1_0_1
    bcast_S8192x64x1_S8192x64x64_0_1_2 x

/-- It is the round on every matrix of the stack. -/
theorem refRound_eq (x : FVec Ideal S8192x64x64 .f32) : refRound x = stackRound x :=
  hostRound_eq _ _ _ _ _ _ _ reduces_last x

/-- The stack after the first round. -/
theorem first_round (V0 : Valuation τ sig (Elt Ideal)) :
    res_main_v12 (F := Ideal) V0 = refRound (V0 (Proc.devRef .tc main_arg0)) := rfl

/-- The stack after the second round. -/
theorem second_round (V0 : Valuation τ sig (Elt Ideal)) :
    res_main_v25 (F := Ideal) V0 = refRound (res_main_v12 (F := Ideal) V0) := rfl

/-- The third round, before the reshape: the last product of the run's term over the third round's weights. -/
theorem third_round (V0 : Valuation τ sig (Elt Ideal)) :
    Host.dotGeneral (φ₂ := .f32) dot_S8192x64x64_S8192x64x64_S8192x64x64_2_1_1_2_0_0 none
        (Host.divf (res_main_v33 (F := Ideal) V0) (broadcastInDim S8192x64x64 ![0, 1, 2] bcast_S8192x64x1_S8192x64x64_0_1_2
          (broadcastInDim S8192x64x1 ![0, 1] bcast_S8192x64_S8192x64x1_0_1
            (Host.reduceAdd (res_main_v33 (F := Ideal) V0) (constant S_ .f32 0x00000000#32) reducesTo_S8192x64x64_S8192x64_d2 h_S_))))
        (res_main_v25 (F := Ideal) V0 : FVec Ideal S8192x64x64 .f32)
      = refRound (res_main_v25 (F := Ideal) V0) := rfl

/-- The reference's run, read: its result is the reshape of three rounds on every matrix of the argument, and the
    argument is unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v39)
          = shapeCast S8192x4096 (stackRound (stackRound (stackRound (m ((c.tc : Thread nD τ).loc main_arg0)))))
              shapeCasts_S8192x64x64_S8192x4096
      ∧ r.2.mem ((c.tc : Thread nD τ).loc main_arg0) = m ((c.tc : Thread nD τ).loc main_arg0) :=
  (θ_run defs _ _).mono (fun _ h c => ⟨(h c).1.trans (by
      rw [third_round, second_round, first_round, refRound_eq, refRound_eq, refRound_eq]), (h c).2⟩)
    (Value.run (F := Ideal) m ρ)

end Cert.ReferenceIdeal.Rounds

end
-- ==== Proof.lean ====
/-
  The kernel and the reference compute one function of the argument x : [8192, 64, 64], a stack of 8192 matrices of 64
  rows and 64 columns: three times over, each matrix X is replaced by softmax(X·Xᵀ)·X (the row softmax shifted by the
  row's maximum), and the stack is then reshaped to [8192, 4096].

  The reference does it over the whole stack with host operations. The kernel does it on a grid of 64 points, point t on
  block t of 128 matrices, with a batched matrix product into a zero accumulator where the reference has a dot_general,
  lane reductions where it has host reductions, and a narrowing to bf16 before each matrix product, which on the
  extended reals is the identity. On the extended reals a product into zero is the product, and a sum or a maximum
  along an axis is the sum or the maximum over that axis's coordinates in any order, so both spellings of a round are
  the same function of each matrix (Proof/LibSelfAttention.lean); no entry has to be finite for that, and the
  precondition is not used. A round acts on each matrix alone, so the kernel's blocks are the blocks of the
  whole-stack function and tile it (Proof/KernelRounds.lean); the reference's three rounds are the same function
  composed (Proof/ReferenceRounds.lean); both end with the same reshape.

  The frames of the two kernel programs are the generated ones; the reference's frame is its run with the result
  dropped. The idealization rewrote no operation, so there is nothing to preserve.
-/
import proofs.«137464_j51539607704_1_alg».proof.Defs
import proofs.«137464_j51539607704_1_alg».proof.Proof.Gen.Kernel
import proofs.«137464_j51539607704_1_alg».proof.Proof.Gen.Kernel.Frame
import proofs.«137464_j51539607704_1_alg».proof.Proof.Gen.KernelIdeal
import proofs.«137464_j51539607704_1_alg».proof.Proof.Gen.KernelIdeal.Frame
import proofs.«137464_j51539607704_1_alg».proof.Proof.Gen.ReferenceIdeal
import proofs.«137464_j51539607704_1_alg».proof.Proof.Gen.ReferenceIdeal.Run
import proofs.«137464_j51539607704_1_alg».proof.Proof.Gen.Pre_finite_inputs
import proofs.«137464_j51539607704_1_alg».proof.Proof.KernelRounds
import proofs.«137464_j51539607704_1_alg».proof.Proof.ReferenceRounds
import Idealize.ShloMosaic.Adequacy
import Idealize.ShloMosaic.Init

noncomputable section

namespace Cert.Proof

open Idealize.ShloMosaic Idealize.SL.Sem

/-- The word-level kernel runs and leaves its argument as it was. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its argument as it was: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, both programs end with the reshape of three self-attention rounds on every matrix of
    the argument. -/
theorem algebraic : Cert.algebraic_KernelIdeal_ReferenceIdeal := by
  intro m ρ m' ρ' _ hagree
  refine ⟨_, Cert.KernelIdeal.Rounds.run m ρ, ?_⟩
  refine (θ_run Cert.ReferenceIdeal.defs _ _).mono (fun _ h c => ⟨(h c).1.trans ?_, (h c).2⟩)
    (Cert.ReferenceIdeal.Rounds.run m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
